-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x3 : Shape := ⟨3, ![4, 65536, 3]⟩
abbrev S4x65536x256 : Shape := ⟨3, ![4, 65536, 256]⟩
abbrev S_ : Shape := ⟨0, ![]⟩

class Facts : Prop where
  bcast_S_S4x65536x3 : S_.BroadcastsInDim S4x65536x3 (![] : Fin 0 → Fin S4x65536x3.rank)
  reducesTo_S4x65536x3_S_d0_1_2 : S4x65536x3.ReducesTo [0, 1, 2] S_
  h_S_ : 0 < S_.numel
  bcast_S_S4x65536x256 : S_.BroadcastsInDim S4x65536x256 (![] : Fin 0 → Fin S4x65536x256.rank)
  reducesTo_S4x65536x256_S_d0_1_2 : S4x65536x256.ReducesTo [0, 1, 2] S_

variable [Facts]

def fn {F : FTy → Type} [FloatOps F] (main_arg0 : FVec F S4x65536x3 .f32) (main_arg1 : FVec F S4x65536x256 .f32) : IVec S_ 1 :=
  let main_v0 : FVec F S4x65536x3 .f32 := Host.absf main_arg0
  let main_cst : FVec F S_ .f32 := constant S_ .f32 0x7F800000#32
  let main_v1 : FVec F S4x65536x3 .f32 := broadcastInDim S4x65536x3 ![] bcast_S_S4x65536x3 main_cst
  let main_v2 : IVec S4x65536x3 1 := cmpf .olt main_v0 main_v1
  let main_c : IVec S_ 1 := constantI S_ 1 1#1
  let main_v3 : IVec S_ 1 := (fun x v => Host.reduce IntOp.andi x v reducesTo_S4x65536x3_S_d0_1_2 h_S_) main_v2 main_c
  let main_v4 : FVec F S4x65536x256 .f32 := Host.absf main_arg1
  let main_cst_0 : FVec F S_ .f32 := constant S_ .f32 0x7F800000#32
  let main_v5 : FVec F S4x65536x256 .f32 := broadcastInDim S4x65536x256 ![] bcast_S_S4x65536x256 main_cst_0
  let main_v6 : IVec S4x65536x256 1 := cmpf .olt main_v4 main_v5
  let main_c_1 : IVec S_ 1 := constantI S_ 1 1#1
  let main_v7 : IVec S_ 1 := (fun x v => Host.reduce IntOp.andi x v reducesTo_S4x65536x256_S_d0_1_2 h_S_) main_v6 main_c_1
  let main_v8 : IVec S_ 1 := andi main_v3 main_v7
  main_v8
-- ==== Kernel.lean ====
abbrev S4x65536x3 : Shape := ⟨3, ![4, 65536, 3]⟩
abbrev S4x65536x256 : Shape := ⟨3, ![4, 65536, 256]⟩
abbrev S_ : Shape := ⟨0, ![]⟩
abbrev S4x65536x1 : Shape := ⟨3, ![4, 65536, 1]⟩
abbrev S4x65536 : Shape := ⟨2, ![4, 65536]⟩
abbrev S4x512x256 : Shape := ⟨3, ![4, 512, 256]⟩
abbrev S1x2048x1 : Shape := ⟨3, ![1, 2048, 1]⟩
abbrev S1x2048x256 : Shape := ⟨3, ![1, 2048, 256]⟩
abbrev S1x512x256 : Shape := ⟨3, ![1, 512, 256]⟩
abbrev S512x256 : Shape := ⟨2, ![512, 256]⟩
abbrev S512x1 : Shape := ⟨2, ![512, 1]⟩
abbrev S2048x1 : Shape := ⟨2, ![2048, 1]⟩
abbrev S2048x512 : Shape := ⟨2, ![2048, 512]⟩
abbrev S2048x256 : Shape := ⟨2, ![2048, 256]⟩

abbrev nBuf : Space → Nat
  | .hbm => 39
  | .vmem => 8
  | .smem => 0
  | _ => 0

abbrev bufTy : (tb : Table) → Fin (tcTables nBuf tb) → BufTy
  | .hbm, ⟨0, _⟩ => ⟨S4x65536x3, .f32⟩
  | .hbm, ⟨1, _⟩ => ⟨S4x65536x256, .f32⟩
  | .hbm, ⟨2, _⟩ => ⟨S_, .f32⟩
  | .hbm, ⟨3, _⟩ => ⟨S4x65536x3, .f32⟩
  | .hbm, ⟨4, _⟩ => ⟨S4x65536x3, .f32⟩
  | .hbm, ⟨5, _⟩ => ⟨S_, .f32⟩
  | .hbm, ⟨6, _⟩ => ⟨S4x65536x3, .f32⟩
  | .hbm, ⟨7, _⟩ => ⟨S4x65536x3, .f32⟩
  | .hbm, ⟨8, _⟩ => ⟨S_, .f32⟩
  | .hbm, ⟨9, _⟩ => ⟨S4x65536x3, .f32⟩
  | .hbm, ⟨10, _⟩ => ⟨S4x65536x3, .f32⟩
  | .hbm, ⟨11, _⟩ => ⟨S4x65536x3, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x65536x3, .i32⟩
  | .hbm, ⟨16, _⟩ => ⟨S4x65536x3, .i32⟩
  | .hbm, ⟨17, _⟩ => ⟨S_, .i32⟩
  | .hbm, ⟨18, _⟩ => ⟨S4x65536x3, .i32⟩
  | .hbm, ⟨19, _⟩ => ⟨S4x65536x3, .i32⟩
  | .hbm, ⟨20, _⟩ => ⟨S4x65536x1, .i32⟩
  | .hbm, ⟨21, _⟩ => ⟨S4x65536, .i32⟩
  | .hbm, ⟨22, _⟩ => ⟨S_, .i32⟩
  | .hbm, ⟨23, _⟩ => ⟨S4x65536, .i32⟩
  | .hbm, ⟨24, _⟩ => ⟨S4x65536, .i32⟩
  | .hbm, ⟨25, _⟩ => ⟨S_, .i32⟩
  | .hbm, ⟨26, _⟩ => ⟨S4x65536, .i32⟩
  | .hbm, ⟨27, _⟩ => ⟨S4x65536, .i32⟩
  | .hbm, ⟨28, _⟩ => ⟨S4x65536x1, .i32⟩
  | .hbm, ⟨29, _⟩ => ⟨S4x65536, .i32⟩
  | .hbm, ⟨30, _⟩ => ⟨S_, .i32⟩
  | .hbm, ⟨31, _⟩ => ⟨S4x65536, .i32⟩
  | .hbm, ⟨32, _⟩ => ⟨S4x65536, .i32⟩
  | .hbm, ⟨33, _⟩ => ⟨S4x65536, .i32⟩
  | .hbm, ⟨34, _⟩ => ⟨S4x65536x1, .i32⟩
  | .hbm, ⟨35, _⟩ => ⟨S4x65536, .i32⟩
  | .hbm, ⟨36, _⟩ => ⟨S4x65536, .i32⟩
  | .hbm, ⟨37, _⟩ => ⟨S4x65536x1, .i32⟩
  | .hbm, ⟨38, _⟩ => ⟨S4x512x256, .f32⟩
  | .local _ .vmem, ⟨0, _⟩ => ⟨S1x2048x1, .i32⟩
  | .local _ .vmem, ⟨1, _⟩ => ⟨S1x2048x1, .i32⟩
  | .local _ .vmem, ⟨2, _⟩ => ⟨S1x2048x256, .f32⟩
  | .local _ .vmem, ⟨3, _⟩ => ⟨S1x2048x256, .f32⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | .local _ .vmem, ⟨7, _⟩ => ⟨S512x1, .f32⟩
  | _, _ => ⟨S4x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v27 : BitVec 1 := Scalar.cmpi .eq arg1 c31_i32
  let v28 : BitVec 32 := Scalar.extui v27
  let c0_i32_16 : BitVec 32 := 0#32
  let v29 : BitVec 1 := Scalar.cmpi .ne v28 c0_i32_16
  v29

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S4x65536x3 : S_.BroadcastsInDim S4x65536x3 (![] : Fin 0 → Fin S4x65536x3.rank)
  slices_S4x65536x3_S4x65536x1_0_0_0 : S4x65536x3.Slices ![0, 0, 0] S4x65536x1
  shapeCasts_S4x65536x1_S4x65536 : S4x65536x1.ShapeCasts S4x65536
  bcast_S_S4x65536 : S_.BroadcastsInDim S4x65536 (![] : Fin 0 → Fin S4x65536.rank)
  slices_S4x65536x3_S4x65536x1_0_0_1 : S4x65536x3.Slices ![0, 0, 1] S4x65536x1
  slices_S4x65536x3_S4x65536x1_0_0_2 : S4x65536x3.Slices ![0, 0, 2] S4x65536x1
  shapeCasts_S4x65536_S4x65536x1 : S4x65536.ShapeCasts S4x65536x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  iota_S2048x512_d1_w32 : S2048x512.Iotas .tc 32 [1]
  broadcasts_S2048x1_S2048x512 : S2048x1.Broadcasts S2048x512
  natLt_1_32 : 1 < 32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  broadcasts_S512x1_S512x256 : S512x1.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S2048x512_S2048x256_S512x256_0_0_1_1_n_n_wf : DotDims.WF S2048x512 S2048x256 S512x256 [0] [0] [1] [1] [] []
  dot_S2048x512_S2048x1_S512x1_0_0_1_1_n_n_wf : DotDims.WF S2048x512 S2048x1 S512x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1.size a ≤ S4x65536x1.size a
  hwx0_0 : ∀ i : grid0.Coords, EltTy.bits .i32 = 32 ∨ (Rect.block (s := S4x65536x1) S1x2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S4x65536x256.size a
  hwx0_1 : ∀ i : grid0.Coords, EltTy.bits .f32 = 32 ∨ (Rect.block (s := S4x65536x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x256.size a ≤ S4x512x256.size a
  hwx0_2 : ∀ i : grid0.Coords, EltTy.bits .f32 = 32 ∨ (Rect.block (s := S4x512x256) S1x512x256.size (cc0_transform_2 i) (hinb0_2 i)).WholeWords (EltTy.packing .f32)

variable [Facts₀]

def dot_S2048x512_S2048x256_S512x256_0_0_1_1_n_n : DotDims S2048x512 S2048x256 S512x256 where
  lhsContracting := [0]
  rhsContracting := [0]
  lhsNonContracting := [1]
  rhsNonContracting := [1]
  lhsBatch := []
  rhsBatch := []
  wf := dot_S2048x512_S2048x256_S512x256_0_0_1_1_n_n_wf
def dot_S2048x512_S2048x1_S512x1_0_0_1_1_n_n : DotDims S2048x512 S2048x1 S512x1 where
  lhsContracting := [0]
  rhsContracting := [0]
  lhsNonContracting := [1]
  rhsNonContracting := [1]
  lhsBatch := []
  rhsBatch := []
  wf := dot_S2048x512_S2048x1_S512x1_0_0_1_1_n_n_wf

abbrev win0_0 : Pipeline.Window sig grid0 :=
  Pipeline.Window.ofSpec (Memref.whole main_v22) S1x2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x65536x3 : Shape := ⟨3, ![4, 65536, 3]⟩
abbrev S4x65536x256 : Shape := ⟨3, ![4, 65536, 256]⟩
abbrev S_ : Shape := ⟨0, ![]⟩
abbrev S4x65536x1 : Shape := ⟨3, ![4, 65536, 1]⟩
abbrev S4x65536 : Shape := ⟨2, ![4, 65536]⟩
abbrev S4 : Shape := ⟨1, ![4]⟩
abbrev S4x1 : Shape := ⟨2, ![4, 1]⟩
abbrev S262144 : Shape := ⟨1, ![262144]⟩
abbrev S262144x256 : Shape := ⟨2, ![262144, 256]⟩
abbrev S2048x256 : Shape := ⟨2, ![2048, 256]⟩
abbrev S262144x1 : Shape := ⟨2, ![262144, 1]⟩
abbrev S2048 : Shape := ⟨1, ![2048]⟩
abbrev S2048x1 : Shape := ⟨2, ![2048, 1]⟩
abbrev S4x512x256 : Shape := ⟨3, ![4, 512, 256]⟩

abbrev nBuf : Space → Nat
  | .hbm => 63
  | .vmem => 0
  | .smem => 0
  | _ => 0

abbrev bufTy : (tb : Table) → Fin (tcTables nBuf tb) → BufTy
  | .hbm, ⟨0, _⟩ => ⟨S4x65536x3, .f32⟩
  | .hbm, ⟨1, _⟩ => ⟨S4x65536x256, .f32⟩
  | .hbm, ⟨2, _⟩ => ⟨S_, .f32⟩
  | .hbm, ⟨3, _⟩ => ⟨S4x65536x3, .f32⟩
  | .hbm, ⟨4, _⟩ => ⟨S4x65536x3, .f32⟩
  | .hbm, ⟨5, _⟩ => ⟨S_, .f32⟩
  | .hbm, ⟨6, _⟩ => ⟨S4x65536x3, .f32⟩
  | .hbm, ⟨7, _⟩ => ⟨S4x65536x3, .f32⟩
  | .hbm, ⟨8, _⟩ => ⟨S_, .f32⟩
  | .hbm, ⟨9, _⟩ => ⟨S4x65536x3, .f32⟩
  | .hbm, ⟨10, _⟩ => ⟨S4x65536x3, .f32⟩
  | .hbm, ⟨11, _⟩ => ⟨S4x65536x3, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x65536x3, .i32⟩
  | .hbm, ⟨16, _⟩ => ⟨S4x65536x3, .i32⟩
  | .hbm, ⟨17, _⟩ => ⟨S_, .i32⟩
  | .hbm, ⟨18, _⟩ => ⟨S4x65536x3, .i32⟩
  | .hbm, ⟨19, _⟩ => ⟨S4x65536x3, .i32⟩
  | .hbm, ⟨20, _⟩ => ⟨S4x65536x1, .i32⟩
  | .hbm, ⟨21, _⟩ => ⟨S4x65536, .i32⟩
  | .hbm, ⟨22, _⟩ => ⟨S_, .i32⟩
  | .hbm, ⟨23, _⟩ => ⟨S4x65536, .i32⟩
  | .hbm, ⟨24, _⟩ => ⟨S4x65536, .i32⟩
  | .hbm, ⟨25, _⟩ => ⟨S_, .i32⟩
  | .hbm, ⟨26, _⟩ => ⟨S4x65536, .i32⟩
  | .hbm, ⟨27, _⟩ => ⟨S4x65536, .i32⟩
  | .hbm, ⟨28, _⟩ => ⟨S4x65536x1, .i32⟩
  | .hbm, ⟨29, _⟩ => ⟨S4x65536, .i32⟩
  | .hbm, ⟨30, _⟩ => ⟨S_, .i32⟩
  | .hbm, ⟨31, _⟩ => ⟨S4x65536, .i32⟩
  | .hbm, ⟨32, _⟩ => ⟨S4x65536, .i32⟩
  | .hbm, ⟨33, _⟩ => ⟨S4x65536, .i32⟩
  | .hbm, ⟨34, _⟩ => ⟨S4x65536x1, .i32⟩
  | .hbm, ⟨35, _⟩ => ⟨S4x65536, .i32⟩
  | .hbm, ⟨36, _⟩ => ⟨S4x65536, .i32⟩
  | .hbm, ⟨37, _⟩ => ⟨S4, .i32⟩
  | .hbm, ⟨38, _⟩ => ⟨S4x1, .i32⟩
  | .hbm, ⟨39, _⟩ => ⟨S_, .i32⟩
  | .hbm, ⟨40, _⟩ => ⟨S4x1, .i32⟩
  | .hbm, ⟨41, _⟩ => ⟨S4x1, .i32⟩
  | .hbm, ⟨42, _⟩ => ⟨S4x65536, .i32⟩
  | .hbm, ⟨43, _⟩ => ⟨S4x65536, .i32⟩
  | .hbm, ⟨44, _⟩ => ⟨S262144, .i32⟩
  | .hbm, ⟨45, _⟩ => ⟨S262144x256, .f32⟩
  | .hbm, ⟨46, _⟩ => ⟨S_, .f32⟩
  | .hbm, ⟨47, _⟩ => ⟨S2048x256, .f32⟩
  | .hbm, ⟨48, _⟩ => ⟨S262144x1, .i32⟩
  | .hbm, ⟨49, _⟩ => ⟨S2048x256, .f32⟩
  | .hbm, ⟨50, _⟩ => ⟨S_, .f32⟩
  | .hbm, ⟨51, _⟩ => ⟨S262144, .f32⟩
  | .hbm, ⟨52, _⟩ => ⟨S_, .f32⟩
  | .hbm, ⟨53, _⟩ => ⟨S2048, .f32⟩
  | .hbm, ⟨54, _⟩ => ⟨S262144x1, .i32⟩
  | .hbm, ⟨55, _⟩ => ⟨S2048, .f32⟩
  | .hbm, ⟨56, _⟩ => ⟨S_, .f32⟩
  | .hbm, ⟨57, _⟩ => ⟨S2048, .f32⟩
  | .hbm, ⟨58, _⟩ => ⟨S2048, .f32⟩
  | .hbm, ⟨59, _⟩ => ⟨S2048x1, .f32⟩
  | .hbm, ⟨60, _⟩ => ⟨S2048x256, .f32⟩
  | .hbm, ⟨61, _⟩ => ⟨S2048x256, .f32⟩
  | .hbm, ⟨62, _⟩ => ⟨S4x512x256, .f32⟩
  | _, _ => ⟨S4x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_cst_9 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S4x65536x3 : S_.BroadcastsInDim S4x65536x3 (![] : Fin 0 → Fin S4x65536x3.rank)
  slices_S4x65536x3_S4x65536x1_0_0_0 : S4x65536x3.Slices ![0, 0, 0] S4x65536x1
  shapeCasts_S4x65536x1_S4x65536 : S4x65536x1.ShapeCasts S4x65536
  bcast_S_S4x65536 : S_.BroadcastsInDim S4x65536 (![] : Fin 0 → Fin S4x65536.rank)
  slices_S4x65536x3_S4x65536x1_0_0_1 : S4x65536x3.Slices ![0, 0, 1] S4x65536x1
  slices_S4x65536x3_S4x65536x1_0_0_2 : S4x65536x3.Slices ![0, 0, 2] S4x65536x1
  bcast_S4_S4x1_0 : S4.BroadcastsInDim S4x1 (![0] : Fin 1 → Fin S4x1.rank)
  bcast_S_S4x1 : S_.BroadcastsInDim S4x1 (![] : Fin 0 → Fin S4x1.rank)
  bcast_S4x1_S4x65536_0_1 : S4x1.BroadcastsInDim S4x65536 (![0, 1] : Fin 2 → Fin S4x65536.rank)
  shapeCasts_S4x65536_S262144 : S4x65536.ShapeCasts S262144
  shapeCasts_S4x65536x256_S262144x256 : S4x65536x256.ShapeCasts S262144x256
  bcast_S_S2048x256 : S_.BroadcastsInDim S2048x256 (![] : Fin 0 → Fin S2048x256.rank)
  bcast_S262144_S262144x1_0 : S262144.BroadcastsInDim S262144x1 (![0] : Fin 1 → Fin S262144x1.rank)
  bcast_S_S262144 : S_.BroadcastsInDim S262144 (![] : Fin 0 → Fin S262144.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  shapeCasts_S2048x256_S4x512x256 : S2048x256.ShapeCasts S4x512x256
  scatter_S2048x256_S262144x1_S262144x256_1_0_0_1_wf : ScatterDims.WF S2048x256 S262144x1 S262144x256 [1] [0] [0] 1
  scatter_S2048_S262144x1_S262144_n_0_0_1_wf : ScatterDims.WF S2048 S262144x1 S262144 [] [0] [0] 1

variable [Facts₀]

def scatter_S2048x256_S262144x1_S262144x256_1_0_0_1 : ScatterDims S2048x256 S262144x1 S262144x256 where
  updateWindowDims := [1]
  insertedWindowDims := [0]
  scatterDimsToOperandDims := [0]
  indexVectorDim := 1
  wf := scatter_S2048x256_S262144x1_S262144x256_1_0_0_1_wf
def scatter_S2048_S262144x1_S262144_n_0_0_1 : ScatterDims S2048 S262144x1 S262144 where
  updateWindowDims := []
  insertedWindowDims := [0]
  scatterDimsToOperandDims := [0]
  indexVectorDim := 1
  wf := scatter_S2048_S262144x1_S262144_n_0_0_1_wf

class Facts : Prop extends Facts₀ where

variable [Facts]
-- ==== Proof.FlatRange.lean ====
/-
  THE BIN NUMBER OF A POINT LIES IN [0, 512).

  The reference computes, for each point, three grid coordinates — a float converted to an integer and clamped into
  `[0, 7]` by a signed maximum with 0 and a signed minimum with 7 — and combines them as `(c₀ · 8) · 8 + c₁ · 8 + c₂`
  in 32-bit words. Whatever the conversion yields, each clamped coordinate is one of the words 0 … 7 (`clamp_le`), so
  the combination does not wrap and is below `7·64 + 7·8 + 7 + 1 = 512` (`flat_lt`).
-/
import proofs.«137292_j46076409152321_1_alg».proof.Proof.Gen.ReferenceIdeal.Read

noncomputable section

namespace Cert.Bridge.FlatRange

open Cert.ReferenceIdeal Cert.ReferenceIdeal.Read Idealize.ShloMosaic

variable {F : FTy → Type} [FloatOps F]

/-- A word clamped (signed) below by 0 and above by 7 is one of 0 … 7. -/
theorem clamp_le (w : BitVec 32) : (IntOp.minsi 7#32 (IntOp.maxsi 0#32 w)).toNat ≤ 7 := by
  unfold IntOp.minsi IntOp.maxsi
  by_cases h0 : w.slt 0#32 = true
  · rw [if_pos h0]
    rw [if_neg (by decide)]
    decide
  · rw [if_neg h0]
    have hw : ¬ w.toInt < 0 := by
      intro h; apply h0
      rw [BitVec.slt_eq_decide]; simpa using h
    by_cases h7 : (7#32).slt w = true
    · rw [if_pos h7]; decide
    · rw [if_neg h7]
      have hw7 : ¬ (7 : Int) < w.toInt := by
        intro h; apply h7
        rw [BitVec.slt_eq_decide]; simpa using h
      rw [BitVec.toInt_eq_toNat_cond] at hw hw7
      split at hw <;> omega

/-- Every clamped grid coordinate is one of the words 0 … 7. -/
theorem coord_le (x0 : (⟨S4x65536x3, .f32⟩ : BufTy).Contents (Elt F)) (j : S4x65536x3.Idx) :
    (val_main_v7 (F := F) x0 j).toNat ≤ 7 := by
  rw [val_main_v7_apply, val_main_call0_v4_apply, val_main_call0_v3_apply, val_main_c_2_apply, val_main_call0_v2_apply,
    val_main_call0_v1_apply, val_main_call0_v0_apply, val_main_c_apply]
  exact clamp_le _

/-- The bin number `(c₀ · 8) · 8 + c₁ · 8 + c₂` of three coordinates in 0 … 7 is below 512. -/
theorem combine_lt (a b c : BitVec 32) (ha : a.toNat ≤ 7) (hb : b.toNat ≤ 7) (hc : c.toNat ≤ 7) :
    (IntOp.addi (IntOp.addi (IntOp.muli (IntOp.muli a 8#32) 8#32) (IntOp.muli b 8#32)) c).toNat < 512 := by
  unfold IntOp.addi IntOp.muli
  rw [BitVec.toNat_add, BitVec.toNat_add, BitVec.toNat_mul, BitVec.toNat_mul, BitVec.toNat_mul]
  show ((a.toNat * 8 % 2 ^ 32 * 8 % 2 ^ 32 + b.toNat * 8 % 2 ^ 32) % 2 ^ 32 + c.toNat) % 2 ^ 32 < 512
  omega

/-- THE RANGE: the bin number of every point is in `[0, 512)`. -/
theorem flat_lt (x0 : (⟨S4x65536x3, .f32⟩ : BufTy).Contents (Elt F)) (i : S4x65536.Idx) :
    (val_main_v21 (F := F) x0 i).toNat < 512 := by
  rw [val_main_v21_apply, val_main_v18_apply, val_main_v13_apply, val_main_v11_apply, val_main_v17_apply,
    val_main_v9_apply, val_main_v8_apply, val_main_v15_apply, val_main_v14_apply, val_main_v20_apply, val_main_v19_apply,
    val_main_v10_apply, val_main_v12_apply, val_main_v16_apply, val_main_c_3_apply, val_main_c_4_apply, val_main_c_5_apply]
  exact combine_lt _ _ _ (coord_le x0 _) (coord_le x0 _) (coord_le x0 _)

end Cert.Bridge.FlatRange

end
-- ==== Proof.SegSpec.lean ====
/-
  SEGMENT SUMS BY A ONE-HOT PRODUCT: the arithmetic both programs share.

  Rows `p = 0 … 65535` of each of 4 batches carry a bin number (an integer word) and a feature row. The sum of the
  feature rows of bin `v` in batch `b` is written here once, as the sum over ALL rows `p` of
  `if bin[b, p] = v then x[b, p, c] else 0` (`segSum`), and the number of rows in the bin as the same sum of a fixed
  unit (`segCnt`). Three ways of computing it are reduced to that form:

  * a product with a one-hot matrix. The entry `(bin = v ? 1 : 0)`, an integer compare widened and converted to a
    float, is exactly 1 or 0 (`onehot_ideal`), `1 · x = x` and `0 · x = 0` on the extended reals, so the matrix product
    contracted over the rows (`matmulT_apply`: both operands contracted on their row axis) is the sum of the rows whose
    bin is `v`;
  * the same taken in 32 consecutive blocks of 2048 rows and added up (`sum_chunks`): addition of extended reals is
    associative and commutative, so the order and the grouping do not matter;
  * a scatter-add over all 4 · 65536 rows at the bin numbers shifted by 512 per batch. Since every bin number lies in
    `[0, 512)`, the shifted number `bin + 512·b'` equals `512·b + v` exactly when `b' = b` and `bin = v`
    (`shifted_eq_iff`), so the rows landing at `512·b + v` are the rows of batch `b` whose bin is `v` (`sum_filter_rows`).
-/
import Idealize.ShloMosaic.PureOps.Ideal
import Idealize.ShloMosaic.PureOps.Ideal.Laws
import Idealize.ShloMosaic.Lib.ValueIdx
import Mathlib.Logic.Equiv.Fin.Basic
import Mathlib.Algebra.BigOperators.Fin

open scoped BigOperators

noncomputable section

namespace Cert.Bridge.Seg

open Idealize.ShloMosaic Idealize.ShloMosaic.ValueIdx

/-! ## Sums over rows taken block by block -/

/-- A sum over `A · B` rows is the sum over `A` blocks of the sums over the `B` rows of each block. -/
theorem sum_blocks {M : Type*} [AddCommMonoid M] (A B : Nat) (g : Fin (A * B) → M) :
    ∑ p : Fin (A * B), g p = ∑ s : Fin A, ∑ r : Fin B, g (finProdFinEquiv (s, r)) := by
  rw [← Equiv.sum_comp finProdFinEquiv g, Fintype.sum_prod_type]

/-- Row `r` of block `s` (of 32 blocks of 2048 rows; `s` is taken modulo 32 so that the row exists for every `s`). -/
def row (s : Nat) (r : Fin 2048) : Fin 65536 := ⟨2048 * (s % 32) + r.val, by have := r.isLt; omega⟩

/-- The 65536 rows summed as 32 blocks of 2048 rows. -/
theorem sum_chunks {M : Type*} [AddCommMonoid M] (g : Fin 65536 → M) :
    ∑ s ∈ Finset.range 32, ∑ r : Fin 2048, g (row s r) = ∑ p : Fin 65536, g p := by
  rw [Finset.sum_range, sum_blocks 32 2048 g]
  refine Finset.sum_congr rfl fun s _ => Finset.sum_congr rfl fun r _ => congrArg g (Fin.ext ?_)
  have hs := s.isLt
  show 2048 * (s.val % 32) + r.val = r.val + 2048 * s.val
  rw [Nat.mod_eq_of_lt hs]; omega

/-- Row `p` of batch `b` among the 4 · 65536 rows laid end to end. -/
def flatRow (b : Fin 4) (p : Fin 65536) : Fin 262144 := ⟨65536 * b.val + p.val, by have := b.isLt; have := p.isLt; omega⟩

/-- The 262144 rows summed batch by batch. -/
theorem sum_flatRows {M : Type*} [AddCommMonoid M] (g : Fin 262144 → M) :
    ∑ e : Fin 262144, g e = ∑ b : Fin 4, ∑ p : Fin 65536, g (flatRow b p) := by
  rw [sum_blocks 4 65536 g]
  refine Finset.sum_congr rfl fun b _ => Finset.sum_congr rfl fun p _ => congrArg g (Fin.ext ?_)
  show p.val + 65536 * b.val = 65536 * b.val + p.val
  omega

/-! ## The one-hot entry -/

/-- An integer compare for equality, widened to 32 bits and read signed, is 1 or 0. -/
theorem onehot_word (x y : BitVec 32) :
    ((IntOp.cmpi .eq x y).setWidth 32).toInt = if x = y then 1 else 0 := by
  by_cases h : x = y
  · rw [if_pos h]; subst h
    show ((BitVec.ofBool (x == x)).setWidth 32).toInt = 1
    rw [beq_self_eq_true]; decide
  · rw [if_neg h]
    show ((BitVec.ofBool (x == y)).setWidth 32).toInt = 0
    rw [beq_eq_false_iff_ne.mpr h]; decide

/-- … so converted to a float it is the extended real 1 or 0. -/
theorem onehot_ideal (x y : BitVec 32) :
    FloatOps.sitofp (F := Ideal) .f32 ((IntOp.cmpi .eq x y).setWidth 32) = if x = y then (1 : EReal) else 0 := by
  show ((((IntOp.cmpi .eq x y).setWidth 32).toInt : ℝ) : EReal) = _
  rw [onehot_word]
  by_cases h : x = y
  · rw [if_pos h, if_pos h]; simp
  · rw [if_neg h, if_neg h]; simp

/-- A one-hot factor keeps or kills the other factor. -/
theorem onehot_mul (c : Prop) [Decidable c] (x : EReal) : (if c then (1 : EReal) else 0) * x = if c then x else 0 := by
  by_cases h : c
  · rw [if_pos h, if_pos h, one_mul]
  · rw [if_neg h, if_neg h, zero_mul]

/-! ## A matrix product contracted over the rows of both operands -/

/-- `Aᵀ · B` for `A : [K, M]`, `B : [K, N]` (both contracted on axis 0) into a zero accumulator, read at (a, b): the sum
    over the rows `k` of `A[k, a] · B[k, b]`. At the ideal values. -/
theorem matmulT_apply {K M N : Nat} {φ₁ φ₂ : FTy}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂)
    (a : Fin M) (b : Fin N) :
    FloatOps.matmul (⟨[0], [0], [1], [1], [], [], w⟩ : DotDims _ _ _) prec A B (constant _ .f32 0x00000000#32) (ix2 a b)
      = ∑ k : Fin K, A (ix2 k a) * B (ix2 k b) := by
  rw [Ideal.matmul_constant_zero_apply,
    ← Equiv.sum_comp (contrEquiv1 (⟨[0], [0], [1], [1], [], [], w⟩ : DotDims _ _ _) K rfl rfl).symm]
  refine Finset.sum_congr rfl fun c _ => ?_
  have c2 := contrEquiv1_symm_val
    (⟨[0], [0], [1], [1], [], [], w⟩ : DotDims ⟨2, ![K, M]⟩ ⟨2, ![K, N]⟩ ⟨2, ![M, N]⟩) K rfl rfl c
  have l2 : (⟨[0], [0], [1], [1], [], [], w⟩ : DotDims ⟨2, ![K, M]⟩ ⟨2, ![K, N]⟩ ⟨2, ![M, N]⟩).lhsIdx (ix2 a b)
      ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![K, M]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Bin numbers shifted by 512 per batch -/

/-- For a bin number `x` in `[0, 512)`, a batch `b' < 4`, a batch `b < 4` and a bin `v < 512`: the word `x + b'·512`, read
    signed, is `512·b + v` exactly when `b' = b` and `x` is the word `v`. -/
theorem shifted_eq_iff (x : BitVec 32) (hx : x.toNat < 512) (b' b : Fin 4) (v : Fin 512) :
    (x + BitVec.ofNat 32 b'.val * 512#32).toInt = ((512 * b.val + v.val : Nat) : Int) ↔ b' = b ∧ x = BitVec.ofNat 32 v.val := by
  have hb' := b'.isLt
  have hb := b.isLt
  have hv := v.isLt
  have h1 : (x + BitVec.ofNat 32 b'.val * 512#32).toNat = x.toNat + 512 * b'.val := by
    rw [BitVec.toNat_add, BitVec.toNat_mul, BitVec.toNat_ofNat]
    show (x.toNat + b'.val % 2 ^ 32 * 512 % 2 ^ 32) % 2 ^ 32 = _
    omega
  have h2 : (x + BitVec.ofNat 32 b'.val * 512#32).toInt = ((x.toNat + 512 * b'.val : Nat) : Int) := by
    rw [BitVec.toInt_eq_toNat_cond, h1, if_pos (by omega)]
  rw [h2]
  constructor
  · intro h
    have h3 : x.toNat + 512 * b'.val = 512 * b.val + v.val := by exact_mod_cast h
    refine ⟨Fin.ext (by omega), BitVec.eq_of_toNat_eq ?_⟩
    rw [BitVec.toNat_ofNat]
    omega
  · rintro ⟨rfl, rfl⟩
    rw [BitVec.toNat_ofNat]
    have : v.val % 2 ^ 32 = v.val := by omega
    rw [this]; push_cast; ring

/-- THE ROWS THAT LAND AT `512·b + v`: a sum over the rows `e` of all batches whose shifted bin number is `512·b + v` is
    the sum over the rows `p` of batch `b` whose bin number is `v`. -/
theorem sum_filter_rows (fl : Fin 4 → Fin 65536 → BitVec 32) (hfl : ∀ b p, (fl b p).toNat < 512)
    (seg : Fin 262144 → BitVec 32)
    (hseg : ∀ (b : Fin 4) (p : Fin 65536), seg (flatRow b p) = fl b p + BitVec.ofNat 32 b.val * 512#32)
    (f : Fin 262144 → EReal) (b : Fin 4) (v : Fin 512) :
    ∑ e ∈ Finset.univ.filter (fun e : Fin 262144 => (seg e).toInt = ((512 * b.val + v.val : Nat) : Int)), f e
      = ∑ p : Fin 65536, if fl b p = BitVec.ofNat 32 v.val then f (flatRow b p) else 0 := by
  rw [Finset.sum_filter, sum_flatRows]
  simp only [hseg, shifted_eq_iff _ (hfl _ _)]
  rw [Finset.sum_eq_single b]
  · refine Finset.sum_congr rfl fun p _ => ?_
    simp only [true_and]
  · intro b' _ hb'
    refine Finset.sum_eq_zero fun p _ => ?_
    rw [if_neg (fun h => hb' h.1)]
  · intro h; exact absurd (Finset.mem_univ b) h

/-! ## The specification -/

/-- The sum of the feature rows of bin `v` in batch `b`, channel `c`. -/
def segSum (fl : IVec ⟨2, ![4, 65536]⟩ 32) (x : FVec Ideal ⟨3, ![4, 65536, 256]⟩ .f32) (b : Fin 4) (v : Fin 512) (c : Fin 256) : EReal :=
  ∑ p : Fin 65536, if fl (ix2 b p) = BitVec.ofNat 32 v.val then x (ix3 b p c) else 0

/-- The number of rows of bin `v` in batch `b`, counted in units of `u`. -/
def segCnt (fl : IVec ⟨2, ![4, 65536]⟩ 32) (u : EReal) (b : Fin 4) (v : Fin 512) : EReal :=
  ∑ p : Fin 65536, if fl (ix2 b p) = BitVec.ofNat 32 v.val then u else 0

/-- The mean of each bin, empty bins zero: the bin's sum divided by the larger of its count and one (the unit the
    programs use is the float literal 1.0, kept as its word). -/
def segMean (fl : IVec ⟨2, ![4, 65536]⟩ 32) (x : FVec Ideal ⟨3, ![4, 65536, 256]⟩ .f32) : FVec Ideal ⟨3, ![4, 512, 256]⟩ .f32 :=
  fun i => Ideal.div (segSum fl x (i 0) (i 1) (i 2))
    (max (segCnt fl (Ideal.ofBits .f32 0x3F800000#32) (i 0) (i 1)) (Ideal.ofBits .f32 0x3F800000#32))

end Cert.Bridge.Seg

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.LibScatter1.lean ====
/-
  SCATTER-ADD INTO A RANK-ONE TABLE, READ AT ONE ELEMENT.

  A table `x : [N]`, a column `idx : [E, 1]` of positions (integer words, read signed) and updates `u : [E]`, one
  scalar per position. The host operation with the dimension numbers of `x.at[idx].add(u)` on a flat table
  (no update window axes, inserted window axes `[0]`, scatter axes to operand axes `[0]`, index vector on axis 1 —
  what `segment_sum` of a vector lowers to) has, at the ideal instance, the element `n`

      x[n] + ∑ over the e with idx[e, 0] = n of u[e]

  (`hostScatterAdd_apply` / `scatterAdd_apply`): the position is NOT clamped, and an update whose position is no
  element of the table is dropped — no range condition is needed.

  Every lemma takes ANY dimension-number record whose lists are the ones above (hypotheses on the fields, each closed
  by `rfl` at a literal record), at any extents `N`, `E`, and speaks of indices built by `ix1` / `ix2` from coordinates.
-/
import Idealize.ShloMosaic.PureOps.Ideal
import Idealize.ShloMosaic.Lib.ValueIdx
import Idealize.ShloMosaic.Lib.ValueIdxRank1

open scoped BigOperators

namespace Cert.Bridge.GS1

open Idealize.ShloMosaic Idealize.ShloMosaic.ValueIdx

/-- Two rank-1 indices built from a coordinate are equal exactly when the coordinates are. -/
theorem ix1_inj {n : Nat} {a a' : Fin n} : ix1 a = ix1 a' ↔ a = a' := by
  constructor
  · intro h
    exact congrFun h 0
  · rintro rfl; rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Scatter
variable {N E w : Nat}

/-- WHERE AN UPDATE LANDS. Update element `e` of a scatter into a flat table (the table's one axis inserted and
    scattered, no window axis; one position per update, on the index vector's axis 1) lands at `idx[e, 0]` when the
    position, read signed and NOT clamped, is an element of the table, and nowhere when it is not. -/
theorem resultIdx?_flat (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) :
    d.resultIdx? (ix1 e) idx =
      if h : 0 ≤ (idx (ix2 e 0)).toInt ∧ (idx (ix2 e 0)).toInt < N then
        some (ix1 ⟨(idx (ix2 e 0)).toInt.toNat, by omega⟩)
      else none := by
  obtain ⟨uw, iw, sd, ivd, wf⟩ := d
  dsimp only at huw hiw hsd hivd
  subst huw hiw hsd hivd
  set D : ScatterDims ⟨1, ![N]⟩ ⟨2, ![E, 1]⟩ ⟨1, ![E]⟩ := ⟨[], [0], [0], 1, wf⟩ with hD
  have hs0 : D.start (ix1 e) idx 0 = (idx (ix2 e 0)).toInt := by
    unfold ScatterDims.start
    rw [dif_pos (show (0 : Fin 1) ∈ D.scatterDimsToOperandDims from List.mem_singleton.mpr rfl)]
    congr 2
    funext b
    refine Fin.ext ?_
    match b with
    | ⟨0, _⟩ => rfl
    | ⟨1, _⟩ => rfl
  have hw0 : D.window (ix1 e) 0 = 0 := by
    unfold ScatterDims.window
    rw [dif_neg (show (0 : Fin 1) ∉ D.sKept from by simp [hD, ScatterDims.sKept, Shape.kept])]
  unfold ScatterDims.resultIdx?
  by_cases h : 0 ≤ (idx (ix2 e 0)).toInt ∧ (idx (ix2 e 0)).toInt < N
  · have hall : ∀ a, 0 ≤ D.start (ix1 e) idx a + D.window (ix1 e) a ∧
        D.start (ix1 e) idx a + D.window (ix1 e) a < (⟨1, ![N]⟩ : Shape).size a := by
      intro a
      match a with
      | ⟨0, _⟩ =>
        show 0 ≤ D.start (ix1 e) idx 0 + D.window (ix1 e) 0 ∧ D.start (ix1 e) idx 0 + D.window (ix1 e) 0 < (N : Int)
        rw [hs0, hw0]; omega
    rw [dif_pos hall, dif_pos h]
    congr 1
    funext a
    refine Fin.ext ?_
    match a with
    | ⟨0, _⟩ =>
      show (D.start (ix1 e) idx 0 + D.window (ix1 e) 0).toNat = (idx (ix2 e 0)).toInt.toNat
      rw [hs0, hw0]; simp
  · rw [dif_neg h, dif_neg]
    intro hall
    have h0 : 0 ≤ D.start (ix1 e) idx 0 + D.window (ix1 e) 0 ∧ D.start (ix1 e) idx 0 + D.window (ix1 e) 0 < (N : Int) :=
      hall 0
    rw [hs0, hw0] at h0
    exact h (by omega)

/-- An update element `e` lands at the table's element `n` exactly when its position `idx[e, 0]`, read signed, is `n`. -/
theorem resultIdx?_eq_some_iff (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e 0)).toInt = (n.val : Int) := by
  rw [resultIdx?_flat d huw hiw hsd hivd idx e]
  have hn := n.isLt
  split
  · next h =>
    rw [Option.some.injEq, ix1_inj]
    constructor
    · intro h1
      have := congrArg Fin.val h1
      simp only at this
      omega
    · intro h1
      refine Fin.ext ?_
      show (idx (ix2 e 0)).toInt.toNat = n.val
      omega
  · next h =>
    constructor
    · intro h'; exact absurd h' (by simp)
    · intro h1; exact absurd (show 0 ≤ (idx (ix2 e 0)).toInt ∧ (idx (ix2 e 0)).toInt < N by omega) h

/-- THE SCATTER-ADD READ AT `n`, no range condition: the table's element plus the sum, over the updates `e` whose
    position `idx[e, 0]` (read signed, not clamped) is `n`, of the update's element `e`. An update whose position is
    no element of the table lands nowhere. -/
theorem hostScatterAdd_apply (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n) =
      x (ix1 n) + ∑ e ∈ Finset.univ.filter (fun e : Fin E => (idx (ix2 e 0)).toInt = (n.val : Int)), upd (ix1 e) := by
  unfold Ideal.hostScatterAdd
  congr 1
  rw [Finset.sum_filter, sum_idx1, Finset.sum_filter]
  refine Finset.sum_congr rfl fun e _ => ?_
  simp only [resultIdx?_eq_some_iff d huw hiw hsd hivd idx e n]

end Scatter

/-! ## The same, stated on the host operation `Host.scatterAdd` at the ideal instance -/

section HostForm
variable {N E w : Nat} {φ : FTy}

/-- On `Host.scatterAdd`: the element `n` of the result is the table's plus the sum of the updates' elements `e` over
    the updates whose position `idx[e, 0]`, read signed, is `n`. -/
theorem scatterAdd_apply (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n) =
      x (ix1 n) + ∑ e ∈ Finset.univ.filter (fun e : Fin E => (idx (ix2 e 0)).toInt = (n.val : Int)), upd (ix1 e) :=
  hostScatterAdd_apply d huw hiw hsd hivd x idx upd n

end HostForm

end Cert.Bridge.GS1
-- ==== Proof.RefValue.lean ====
/-
  THE REFERENCE'S RESULT IS THE MEAN OF EACH BIN.

  The reference lays the 4 · 65536 points end to end, shifts each point's bin number by `512 · batch`, scatter-adds the
  feature rows (and a vector of ones) at the shifted numbers into zero tables of 4 · 512 rows, divides the sums by the
  larger of the count and one, and views the [2048, 256] table as [4, 512, 256]. Read at (b, v, c):

  * the table row is `512·b + v` (the reshape keeps the row-major position);
  * the scatter-add puts there the sum of the updates whose shifted bin number, read signed, is `512·b + v`; the bin
    numbers lie in `[0, 512)`, so these are the points of batch `b` in bin `v` — `Seg.sum_filter_rows` —, and the flat
    row `65536·b + p` of the reshaped features is `x[b, p, c]`;
  * the zero tables add nothing.

  So the result is `Seg.segMean` of the bin numbers and the features.
-/
import proofs.«137292_j46076409152321_1_alg».proof.Proof.Gen.ReferenceIdeal.Read
import proofs.«137292_j46076409152321_1_alg».proof.Proof.FlatRange
import proofs.«137292_j46076409152321_1_alg».proof.Proof.SegSpec
import proofs.«137292_j46076409152321_1_alg».proof.Proof.LibGatherScatter
import proofs.«137292_j46076409152321_1_alg».proof.Proof.LibScatter1

open scoped BigOperators

noncomputable section

namespace Cert.Bridge.RefValue

open Cert.ReferenceIdeal Cert.ReferenceIdeal.Read Idealize.ShloMosaic Idealize.ShloMosaic.ValueIdx
open Cert.Bridge Cert.Bridge.Seg

/-- The float literal 1.0, kept as its word. -/
abbrev one : EReal := Ideal.ofBits .f32 0x3F800000#32

/-- Table row `512·b + v`. -/
def tableRow (b : Fin 4) (v : Fin 512) : Fin 2048 := ⟨512 * b.val + v.val, by have := b.isLt; have := v.isLt; omega⟩

/-- The shifted bin number of flat row `65536·b + p` is the point's bin number plus `b · 512`, as words. -/
theorem shifted_eq (x0 : FVec Ideal S4x65536x3 .f32) (b : Fin 4) (p : Fin 65536) :
    val_main_v28 (F := Ideal) x0 (ix1 (flatRow b p)) = val_main_v21 (F := Ideal) x0 (ix2 b p) + BitVec.ofNat 32 b.val * 512#32 := by
  have hb := b.isLt
  have hp := p.isLt
  have hi : idx_main_v28 (ix1 (flatRow b p)) = ix2 b p := by
    funext a
    match a with
    | ⟨0, _⟩ => exact Fin.ext (by show (65536 * b.val + p.val) / 65536 = b.val; omega)
    | ⟨1, _⟩ => exact Fin.ext (by show (65536 * b.val + p.val) % 65536 = p.val; omega)
  rw [val_main_v28_apply, hi, val_main_v27_apply, val_main_v26_apply, val_main_v25_apply, val_main_v23_apply,
    val_main_v22_apply, val_main_v24_apply, val_main_c_6_apply]
  rfl

/-- The reshaped features at flat row `65536·b + p`, channel `c`, are `x[b, p, c]`. -/
theorem feats_flat (x1 : FVec Ideal S4x65536x256 .f32) (b : Fin 4) (p : Fin 65536) (ch : Fin 256) :
    val_main_v29 (F := Ideal) x1 (ix2 (flatRow b p) ch) = x1 (ix3 b p ch) := by
  have hb := b.isLt
  have hp := p.isLt
  have hc := ch.isLt
  rw [val_main_v29_apply]
  refine congrArg x1 (funext fun a => ?_)
  match a with
  | ⟨0, _⟩ => exact Fin.ext (by show ((65536 * b.val + p.val) * 256 + ch.val) / 16777216 = b.val; omega)
  | ⟨1, _⟩ => exact Fin.ext (by show ((65536 * b.val + p.val) * 256 + ch.val) / 256 % 65536 = p.val; omega)
  | ⟨2, _⟩ => exact Fin.ext (by show ((65536 * b.val + p.val) * 256 + ch.val) % 256 = ch.val; omega)

/-- THE SUMS TABLE at row `512·b + v`, channel `c`: the sum of the feature rows of batch `b` in bin `v`. -/
theorem sums_apply (x0 : FVec Ideal S4x65536x3 .f32) (x1 : FVec Ideal S4x65536x256 .f32) (b : Fin 4) (v : Fin 512) (ch : Fin 256) :
    val_main_v32 (F := Ideal) x0 x1 (ix2 (tableRow b v) ch) = segSum (val_main_v21 (F := Ideal) x0) x1 b v ch := by
  unfold val_main_v32
  rw [GS.scatterAdd_apply scatter_S2048x256_S262144x1_S262144x256_1_0_0_1 rfl rfl rfl rfl, val_main_v30_apply,
    val_main_cst_7_apply]
  show Ideal.ofBits .f32 0x00000000#32 + _ = _
  rw [Ideal.ofBits_zero_f32, zero_add]
  refine (sum_filter_rows (fun b p => val_main_v21 (F := Ideal) x0 (ix2 b p)) (fun b p => FlatRange.flat_lt (F := Ideal) x0 (ix2 b p))
    (fun e => val_main_v31 (F := Ideal) x0 (ix2 e 0)) (fun b p => ?_) (fun e => val_main_v29 (F := Ideal) x1 (ix2 e ch)) b v).trans ?_
  · have hj : idx_main_v31 (ix2 (flatRow b p) (0 : Fin 1)) = ix1 (flatRow b p) := by
      funext a
      match a with
      | ⟨0, _⟩ => rfl
    rw [val_main_v31_apply, hj]
    exact shifted_eq x0 b p
  · unfold segSum
    refine Finset.sum_congr rfl fun p _ => ?_
    rw [feats_flat]

/-- THE COUNTS TABLE at row `512·b + v`: the number of points of batch `b` in bin `v`, in units of the literal 1.0. -/
theorem counts_apply (x0 : FVec Ideal S4x65536x3 .f32) (b : Fin 4) (v : Fin 512) :
    val_main_v36 (F := Ideal) x0 (ix1 (tableRow b v)) = segCnt (val_main_v21 (F := Ideal) x0) one b v := by
  unfold val_main_v36
  rw [GS1.scatterAdd_apply scatter_S2048_S262144x1_S262144_n_0_0_1 rfl rfl rfl rfl, val_main_v34_apply,
    val_main_cst_9_apply]
  show Ideal.ofBits .f32 0x00000000#32 + _ = _
  rw [Ideal.ofBits_zero_f32, zero_add]
  refine (sum_filter_rows (fun b p => val_main_v21 (F := Ideal) x0 (ix2 b p)) (fun b p => FlatRange.flat_lt (F := Ideal) x0 (ix2 b p))
    (fun e => val_main_v35 (F := Ideal) x0 (ix2 e 0)) (fun b p => ?_) (fun e => val_main_v33 (F := Ideal) (ix1 e)) b v).trans ?_
  · have hj : idx_main_v35 (ix2 (flatRow b p) (0 : Fin 1)) = ix1 (flatRow b p) := by
      funext a
      match a with
      | ⟨0, _⟩ => rfl
    rw [val_main_v35_apply, hj]
    exact shifted_eq x0 b p
  · unfold segCnt
    refine Finset.sum_congr rfl fun p _ => ?_
    rw [val_main_v33_apply, val_main_cst_8_apply]
    rfl

/-- THE REFERENCE'S RESULT, as one function of the bin numbers and the features: the mean of each bin. -/
theorem result_eq (x0 : FVec Ideal S4x65536x3 .f32) (x1 : FVec Ideal S4x65536x256 .f32) :
    val_main_v42 (F := Ideal) x0 x1 = segMean (val_main_v21 (F := Ideal) x0) x1 := by
  funext i
  obtain ⟨b, v, ch, rfl⟩ : ∃ (b : Fin 4) (v : Fin 512) (ch : Fin 256), i = ix3 b v ch := ⟨i 0, i 1, i 2, eq_ix3 i⟩
  have hb := b.isLt
  have hv := v.isLt
  have hc := ch.isLt
  have hi : idx_main_v42 (ix3 b v ch) = ix2 (tableRow b v) ch := by
    funext a
    match a with
    | ⟨0, _⟩ => exact Fin.ext (by show ((b.val * 512 + v.val) * 256 + ch.val) / 256 = 512 * b.val + v.val; omega)
    | ⟨1, _⟩ => exact Fin.ext (by show ((b.val * 512 + v.val) * 256 + ch.val) % 256 = ch.val; omega)
  have hj : idx_main_v39 (idx_main_v40 (ix2 (tableRow b v) ch)) = ix1 (tableRow b v) := by
    funext a
    match a with
    | ⟨0, _⟩ => rfl
  rw [val_main_v42_apply, hi, val_main_v41_apply, sums_apply, val_main_v40_apply, val_main_v39_apply, hj,
    val_main_v38_apply, counts_apply, val_main_v37_apply, val_main_cst_10_apply]
  rfl

end Cert.Bridge.RefValue

end
-- ==== Proof.KernelPieces.lean ====
/-
  WHAT ONE GRID STEP LEAVES IN THE TWO ACCUMULATORS AND IN THE OUTPUT BLOCK.

  The kernel keeps a [512, 256] table of sums and a [512, 1] column of counts across the 32 steps of a batch. Every
  step adds its chunk's contribution to both; the first step of a batch zeroes them first, the last step also divides
  the sums by the larger of the count and one and writes the quotient into the output block. Each lemma below reads one
  step's stores back as a value: a store that covers its buffer leaves its payload there, a load after such a store
  reads that payload, a load of an untouched buffer reads what the buffer held.

    first step   sums   := (0 + chunk's sums),   counts := (0 + chunk's counts)
    later steps  sums   := (held + chunk's sums), counts := (held + chunk's counts)
    last step    also   out := new sums / max(new counts, 1)
-/
import proofs.«137292_j46076409152321_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- FIRST STEP of a batch, the sums: the zero table is stored, read back, and the chunk's sums added to it. -/
theorem sums_first (c : Dev nD) (i : grid0.Coords) (arg2 : Memref sig .tc .vmem S1x2048x1 .i32) (harg2 : arg2.IsWhole) (arg3 : Memref sig .tc .vmem S1x2048x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : cond0_0 i) (hc1 : ¬cond0_1 i)
    (x0 : Vec F S1x2048x1 .i32) (x1 : Vec F S1x2048x256 .f32) :
    sout0_A_0 c i arg2 harg2 arg3 harg3 arg4 harg4 arg5 harg5 arg6 harg6 hc0 hc1 x0 x1 = k0_pay4 x0 x1 k0_pay1 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x256) hz2]
  simp only [View.readAt_eq_ld, harg2.read_unread, harg3.read_unread, harg5.read_unread, harg6.read_unread,
    View.ld_unit_zero (S := S1x2048x1) hz3, View.ld_unit_zero (S := S1x2048x256) hz3, View.ld_unit_zero (S := S512x256) hz2,
    View.ld_unit_zero (S := S512x1) hz2, View.readCov_unit_zero (S := S512x256) _ hz2, View.readCov_unit_zero (S := S512x1) _ hz2]

/-- FIRST STEP of a batch, the counts: the zero column is stored, read back, and the chunk's counts added to it. -/
theorem counts_first (c : Dev nD) (i : grid0.Coords) (arg2 : Memref sig .tc .vmem S1x2048x1 .i32) (harg2 : arg2.IsWhole) (arg3 : Memref sig .tc .vmem S1x2048x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : cond0_0 i) (hc1 : ¬cond0_1 i)
    (x0 : Vec F S1x2048x1 .i32) (x1 : Vec F S1x2048x256 .f32) :
    sout0_A_1 c i arg2 harg2 arg3 harg3 arg4 harg4 arg5 harg5 arg6 harg6 hc0 hc1 x0 x1 = k0_pay5 x0 k0_pay2 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S512x1) hz2]
  simp only [View.readAt_eq_ld, harg2.read_unread, harg3.read_unread, harg5.read_unread, harg6.read_unread,
    View.ld_unit_zero (S := S1x2048x1) hz3, View.ld_unit_zero (S := S1x2048x256) hz3, View.ld_unit_zero (S := S512x256) hz2,
    View.ld_unit_zero (S := S512x1) hz2, View.readCov_unit_zero (S := S512x256) _ hz2, View.readCov_unit_zero (S := S512x1) _ hz2]

/-- A MIDDLE STEP, the sums: what the table held plus the chunk's sums. -/
theorem sums_mid (c : Dev nD) (i : grid0.Coords) (arg2 : Memref sig .tc .vmem S1x2048x1 .i32) (harg2 : arg2.IsWhole) (arg3 : Memref sig .tc .vmem S1x2048x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : ¬cond0_1 i)
    (x0 : Vec F S1x2048x1 .i32) (x1 : Vec F S1x2048x256 .f32) (xs0 : Vec F S512x256 .f32) (xs1 : Vec F S512x1 .f32) :
    sout0_B_0 c i arg2 harg2 arg3 harg3 arg4 harg4 arg5 harg5 arg6 harg6 hc0 hc1 x0 x1 xs0 xs1 = k0_pay4 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread,
    View.ld_unit_zero (S := S1x2048x1) hz3, View.ld_unit_zero (S := S1x2048x256) hz3, View.ld_unit_zero (S := S512x256) hz2,
    View.ld_unit_zero (S := S512x1) hz2, View.readCov_unit_zero (S := S512x256) _ hz2, View.readCov_unit_zero (S := S512x1) _ hz2]

/-- A MIDDLE STEP, the counts: what the column held plus the chunk's counts. -/
theorem counts_mid (c : Dev nD) (i : grid0.Coords) (arg2 : Memref sig .tc .vmem S1x2048x1 .i32) (harg2 : arg2.IsWhole) (arg3 : Memref sig .tc .vmem S1x2048x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : ¬cond0_1 i)
    (x0 : Vec F S1x2048x1 .i32) (x1 : Vec F S1x2048x256 .f32) (xs0 : Vec F S512x256 .f32) (xs1 : Vec F S512x1 .f32) :
    sout0_B_1 c i arg2 harg2 arg3 harg3 arg4 harg4 arg5 harg5 arg6 harg6 hc0 hc1 x0 x1 xs0 xs1 = k0_pay5 x0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread,
    View.ld_unit_zero (S := S1x2048x1) hz3, View.ld_unit_zero (S := S1x2048x256) hz3, View.ld_unit_zero (S := S512x256) hz2,
    View.ld_unit_zero (S := S512x1) hz2, View.readCov_unit_zero (S := S512x256) _ hz2, View.readCov_unit_zero (S := S512x1) _ hz2]

/-- THE LAST STEP of a batch, the sums: what the table held plus the chunk's sums. -/
theorem sums_last (c : Dev nD) (i : grid0.Coords) (arg2 : Memref sig .tc .vmem S1x2048x1 .i32) (harg2 : arg2.IsWhole) (arg3 : Memref sig .tc .vmem S1x2048x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : cond0_1 i)
    (x0 : Vec F S1x2048x1 .i32) (x1 : Vec F S1x2048x256 .f32) (xs0 : Vec F S512x256 .f32) (xs1 : Vec F S512x1 .f32) :
    sout0_C_0 c i arg2 harg2 arg3 harg3 arg4 harg4 arg5 harg5 arg6 harg6 hc0 hc1 x0 x1 xs0 xs1 = k0_pay4 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread,
    View.ld_unit_zero (S := S1x2048x1) hz3, View.ld_unit_zero (S := S1x2048x256) hz3, View.ld_unit_zero (S := S512x256) hz2,
    View.ld_unit_zero (S := S512x1) hz2, View.readCov_unit_zero (S := S512x256) _ hz2, View.readCov_unit_zero (S := S512x1) _ hz2]

/-- THE LAST STEP of a batch, the counts: what the column held plus the chunk's counts. -/
theorem counts_last (c : Dev nD) (i : grid0.Coords) (arg2 : Memref sig .tc .vmem S1x2048x1 .i32) (harg2 : arg2.IsWhole) (arg3 : Memref sig .tc .vmem S1x2048x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : cond0_1 i)
    (x0 : Vec F S1x2048x1 .i32) (x1 : Vec F S1x2048x256 .f32) (xs0 : Vec F S512x256 .f32) (xs1 : Vec F S512x1 .f32) :
    sout0_C_1 c i arg2 harg2 arg3 harg3 arg4 harg4 arg5 harg5 arg6 harg6 hc0 hc1 x0 x1 xs0 xs1 = k0_pay5 x0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread,
    View.ld_unit_zero (S := S1x2048x1) hz3, View.ld_unit_zero (S := S1x2048x256) hz3, View.ld_unit_zero (S := S512x256) hz2,
    View.ld_unit_zero (S := S512x1) hz2, View.readCov_unit_zero (S := S512x256) _ hz2, View.readCov_unit_zero (S := S512x1) _ hz2]

/-- THE LAST STEP of a batch, the output block: the quotient of the NEW sums by the larger of the NEW counts and one (both are read back after this step's own stores). -/
theorem out_last (c : Dev nD) (i : grid0.Coords) (arg2 : Memref sig .tc .vmem S1x2048x1 .i32) (harg2 : arg2.IsWhole) (arg3 : Memref sig .tc .vmem S1x2048x256 .f32) (harg3 : arg3.IsWhole) (arg4 : Memref sig .tc .vmem S1x512x256 .f32) (harg4 : arg4.IsWhole) (arg5 : Memref sig .tc .vmem S512x256 .f32) (harg5 : arg5.IsWhole) (arg6 : Memref sig .tc .vmem S512x1 .f32) (harg6 : arg6.IsWhole) (hc0 : ¬cond0_0 i) (hc1 : cond0_1 i)
    (x0 : Vec F S1x2048x1 .i32) (x1 : Vec F S1x2048x256 .f32) (xs0 : Vec F S512x256 .f32) (xs1 : Vec F S512x1 .f32) :
    out0_C_2 c i arg2 harg2 arg3 harg3 arg4 harg4 arg5 harg5 arg6 harg6 hc0 hc1 x0 x1 xs0 xs1 = k0_pay6 (k0_pay5 x0 xs1) (k0_pay4 x0 x1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz3]
  simp only [View.readAt_eq_ld, harg2.read_unread, harg3.read_unread, harg5.read_unread, harg6.read_unread,
    View.ld_unit_zero (S := S1x2048x1) hz3, View.ld_unit_zero (S := S1x2048x256) hz3, View.ld_unit_zero (S := S512x256) hz2,
    View.ld_unit_zero (S := S512x1) hz2, View.readCov_unit_zero (S := S512x256) _ hz2, View.readCov_unit_zero (S := S512x1) _ hz2]

end Cert.KernelIdeal.Pieces

end
-- ==== Proof.KernelPay.lean ====
/-
  ONE STEP'S ARITHMETIC, READ AT AN INDEX (at the ideal values).

  A chunk of 2048 points carries a column of bin numbers `bin[r]` and a [2048, 256] block of features. The kernel builds
  the one-hot matrix `H[r, v] = (bin[r] = v ? 1 : 0)` by comparing the broadcast column with a lane iota, and multiplies
  its transpose with the features and with a column of ones on the matrix unit, both into a zero accumulator. Narrowing
  the operands to bf16 changes nothing at the ideal values. So

    sums'[v, c]  = sums[v, c]  + ∑ r, H[r, v] · x[r, c]          (`sums_apply`)
    counts'[v]   = counts[v]   + ∑ r, H[r, v] · 1.0              (`counts_apply`)
    out[0, v, c] = sums'[v, c] / max(counts'[v], 1.0)            (`mean_apply`)

  with the float literal 1.0 kept as its word.
-/
import proofs.«137292_j46076409152321_1_alg».proof.Proof.Gen.KernelIdeal.Skeleton
import proofs.«137292_j46076409152321_1_alg».proof.Proof.SegSpec
import Idealize.ShloMosaic.Lib.Pipeline.Value
import Idealize.ShloMosaic.Lib.ValueIdx
import Idealize.ShloMosaic.PureOps.Ideal.Laws

open scoped BigOperators

noncomputable section

namespace Cert.KernelIdeal.Pay

open Cert.KernelIdeal Cert.KernelIdeal.Gen Idealize.ShloMosaic Idealize.ShloMosaic.ValueIdx Cert.Bridge.Seg

/-- The float literal 1.0, kept as its word. -/
abbrev one : EReal := Ideal.ofBits .f32 0x3F800000#32

/-- The one-hot entry `H[r, v]`: 1 when point `r`'s bin number is the word `v`, else 0. -/
theorem onehot_apply (v3 : Vec Ideal S1x2048x1 .i32) (r : Fin 2048) (v : Fin 512) :
    k0_pay3 (F := Ideal) v3 (ix2 r v) = if v3 (ix3 0 r 0) = BitVec.ofNat 32 v.val then (1 : EReal) else 0 := by
  unfold k0_pay3
  dsimp only
  rw [sitofp_apply, extui_apply]
  show FloatOps.sitofp (F := Ideal) .f32 ((IntOp.cmpi .eq
    (broadcastTo S2048x512 (shapeCast S2048x1 v3 Facts₀.shapeCasts_S1x2048x1_S2048x1) Facts₀.broadcasts_S2048x1_S2048x512 (ix2 r v))
    (iota .tc S2048x512 32 [1] Facts₀.iota_S2048x512_d1_w32 (ix2 r v))).setWidth 32) = _
  rw [onehot_ideal, iota_single_apply,
    broadcastTo_apply _ Facts₀.broadcasts_S2048x1_S2048x512 (ix2 r v) (ix2 r (0 : Fin 1)) (fun a => match a with
      | ⟨0, _⟩ => by show r.val = if (2048 : Nat) = 1 then 0 else r.val; rw [if_neg (by decide)]
      | ⟨1, _⟩ => by show 0 = if (1 : Nat) = 1 then 0 else v.val; rw [if_pos rfl]),
    shapeCast_apply v3 Facts₀.shapeCasts_S1x2048x1_S2048x1 (ix2 r (0 : Fin 1)) (ix3 (0 : Fin 1) r (0 : Fin 1))
      (by rewrite [Shape.rowMajor_val_three, Shape.rowMajor_val_two]; show (0 * 2048 + r.val) * 1 + 0 = r.val * 1 + 0; omega)]

/-- The features block viewed [2048, 256]. -/
theorem feats_apply (v10 : Vec Ideal S1x2048x256 .f32) (r : Fin 2048) (ch : Fin 256) :
    shapeCast S2048x256 v10 Facts₀.shapeCasts_S1x2048x256_S2048x256 (ix2 r ch) = v10 (ix3 (0 : Fin 1) r ch) :=
  shapeCast_apply v10 Facts₀.shapeCasts_S1x2048x256_S2048x256 (ix2 r ch) (ix3 (0 : Fin 1) r ch)
    (by rewrite [Shape.rowMajor_val_three, Shape.rowMajor_val_two]; show (0 * 2048 + r.val) * 256 + ch.val = r.val * 256 + ch.val; omega)

/-- THE SUMS after a step: what the table held plus the sum over the chunk's points of `H[r, v] · x[r, c]`. -/
theorem sums_apply (v3 : Vec Ideal S1x2048x1 .i32) (v10 : Vec Ideal S1x2048x256 .f32) (v17 : Vec Ideal S512x256 .f32)
    (v : Fin 512) (ch : Fin 256) :
    k0_pay4 (F := Ideal) v3 v10 v17 (ix2 v ch) = v17 (ix2 v ch) +
      ∑ r : Fin 2048, (if v3 (ix3 0 r 0) = BitVec.ofNat 32 v.val then (1 : EReal) else 0) * v10 (ix3 0 r ch) := by
  unfold k0_pay4
  rw [shapeCast_self, addf_apply]
  congr 1
  refine (matmulT_apply Facts₀.dot_S2048x512_S2048x256_S512x256_0_0_1_1_n_n_wf none _ _ v ch).trans ?_
  refine Finset.sum_congr rfl fun r _ => ?_
  rw [truncf_apply, truncf_apply, onehot_apply, feats_apply]

/-- THE COUNTS after a step: what the column held plus the sum over the chunk's points of `H[r, v] · 1.0`. -/
theorem counts_apply (v3 : Vec Ideal S1x2048x1 .i32) (v22 : Vec Ideal S512x1 .f32) (v : Fin 512) :
    k0_pay5 (F := Ideal) v3 v22 (ix2 v (0 : Fin 1)) = v22 (ix2 v (0 : Fin 1)) +
      ∑ r : Fin 2048, (if v3 (ix3 0 r 0) = BitVec.ofNat 32 v.val then (1 : EReal) else 0) * one := by
  unfold k0_pay5
  rw [shapeCast_self, addf_apply]
  refine congrArg (v22 (ix2 v (0 : Fin 1)) + ·) ?_
  refine (matmulT_apply (K := 2048) (M := 512) (N := 1) (φ₁ := .f32) (φ₂ := .f32)
    Facts₀.dot_S2048x512_S2048x1_S512x1_0_0_1_1_n_n_wf none (k0_pay3 (F := Ideal) v3)
    (broadcast S2048x1 (Scalar.ofBits (F := Ideal) .f32 0x3F800000#32)) v (0 : Fin 1)).trans ?_
  refine Finset.sum_congr rfl fun r _ => ?_
  rw [onehot_apply]
  rfl

/-- THE OUTPUT BLOCK of a batch's last step: the sums divided by the larger of the count and 1.0. -/
theorem mean_apply (v30 : Vec Ideal S512x1 .f32) (v33 : Vec Ideal S512x256 .f32) (v : Fin 512) (ch : Fin 256) :
    k0_pay6 (F := Ideal) v30 v33 (ix3 (0 : Fin 1) v ch) = Ideal.div (v33 (ix2 v ch)) (max (v30 (ix2 v 0)) one) := by
  unfold k0_pay6
  rw [shapeCast_apply _ Facts₀.shapeCasts_S512x256_S1x512x256 (ix3 (0 : Fin 1) v ch) (ix2 v ch)
      (by rewrite [Shape.rowMajor_val_three, Shape.rowMajor_val_two]; show v.val * 256 + ch.val = (0 * 512 + v.val) * 256 + ch.val; omega),
    divf_apply,
    broadcastTo_apply _ Facts₀.broadcasts_S512x1_S512x256 (ix2 v ch) (ix2 v (0 : Fin 1)) (fun a => match a with
      | ⟨0, _⟩ => by show v.val = if (512 : Nat) = 1 then 0 else v.val; rw [if_neg (by decide)]
      | ⟨1, _⟩ => by show 0 = if (1 : Nat) = 1 then 0 else ch.val; rw [if_pos rfl]),
    maximumf_apply]
  rfl

end Cert.KernelIdeal.Pay

end
-- ==== Proof.KernelAcc.lean ====
/-
  THE ACCUMULATORS AFTER EACH GRID STEP.

  The grid has 4 · 32 steps; step `n` works on batch `n / 32` and on the chunk of rows `2048·(n % 32) … + 2047` of that
  batch (`bins_blk`, `feats_blk`: the two input blocks of step `n` are those rows of the bin-number array and of the
  feature array). The first step of a batch starts the two accumulators from zero, every later one adds to what the
  step before left. So after step `n` the sums table holds, at (v, c), the contributions of the chunks `0 … n % 32` of
  batch `n / 32` (`acc_eq`, by induction on `n`) — chunk `s` contributes `∑ r, H[r, v] · x[row s r, c]` with `H` the one-hot
  entry —, and the counts column the same with the literal 1.0 in place of the feature.
-/
import proofs.«137292_j46076409152321_1_alg».proof.Proof.KernelPieces
import proofs.«137292_j46076409152321_1_alg».proof.Proof.KernelPay

open scoped BigOperators

noncomputable section

open Idealize.ShloMosaic Idealize.ShloMosaic.TcCoe Idealize.SL.Sem

namespace Cert.KernelIdeal.Acc

open Cert.KernelIdeal Cert.KernelIdeal.Gen Idealize.ShloMosaic.ValueIdx Cert.Bridge.Seg

variable (m : (ℓ : Loc nD τ sig) → Buf (Elt Ideal) ℓ)

/-- The bin numbers as the region finds them, [4, 65536, 1]. -/
abbrev bins (c : Dev nD) : Vec Ideal S4x65536x1 .i32 := V m c main_v22
/-- The features as the region finds them, [4, 65536, 256]. -/
abbrev feats (c : Dev nD) : Vec Ideal S4x65536x256 .f32 := V m c main_arg1
/-- Step `t`'s block of bin numbers, [1, 2048, 1]. -/
abbrev binBlk (c : Dev nD) (t : Fin cfg0.N) : Vec Ideal S1x2048x1 .i32 := iblk m c 0 t
/-- Step `t`'s block of features, [1, 2048, 256]. -/
abbrev featBlk (c : Dev nD) (t : Fin cfg0.N) : Vec Ideal S1x2048x256 .f32 := iblk m c 1 t

/-- The batch step `n` works on (taken modulo 4 so that it is a batch for every `n`). -/
def bat (n : Nat) : Fin 4 := ⟨n / 32 % 4, Nat.mod_lt _ (by decide)⟩

/-- Where the two input windows' blocks lie: block (n / 32, n % 32, 0). -/
theorem idx_facts0 : ∀ t : Fin cfg0.N,
    win0_0.index t 0 = t.val / 32 ∧ win0_0.index t 1 = t.val % 32 ∧ win0_0.index t 2 = 0 :=
  (by decide +kernel : ∀ t : Fin grid0.N, _)
theorem idx_facts1 : ∀ t : Fin cfg0.N,
    win0_1.index t 0 = t.val / 32 ∧ win0_1.index t 1 = t.val % 32 ∧ win0_1.index t 2 = 0 :=
  (by decide +kernel : ∀ t : Fin grid0.N, _)

/-- Step `t`'s block of bin numbers is rows `2048·(t % 32) …` of batch `t / 32`. -/
theorem bins_blk (c : Dev nD) (t : Fin cfg0.N) (r : Fin 2048) :
    binBlk m c t (ix3 0 r 0) = bins m c (ix3 (bat t.val) (row (t.val % 32) r) 0) := by
  have hN : t.val < 128 := lt_of_lt_of_eq t.isLt N_0
  obtain ⟨h0, h1, h2⟩ := idx_facts0 t
  show iblk m c 0 t (ix3 0 r 0) = _
  unfold iblk
  rw [View.read_apply]
  show V m c main_v22 _ = V m c main_v22 _
  refine congrArg (V m c main_v22) (funext fun a => Fin.ext ?_)
  match a with
  | ⟨0, _⟩ =>
    show win0_0.index t 0 * 1 + 1 * 0 = t.val / 32 % 4
    rw [h0]; omega
  | ⟨1, _⟩ =>
    show win0_0.index t 1 * 2048 + 1 * r.val = 2048 * (t.val % 32 % 32) + r.val
    rw [h1]; omega
  | ⟨2, _⟩ =>
    show win0_0.index t 2 * 1 + 1 * 0 = 0
    rw [h2]

/-- Step `t`'s block of features is rows `2048·(t % 32) …` of batch `t / 32`. -/
theorem feats_blk (c : Dev nD) (t : Fin cfg0.N) (r : Fin 2048) (ch : Fin 256) :
    featBlk m c t (ix3 0 r ch) = feats m c (ix3 (bat t.val) (row (t.val % 32) r) ch) := by
  have hN : t.val < 128 := lt_of_lt_of_eq t.isLt N_0
  obtain ⟨h0, h1, h2⟩ := idx_facts1 t
  show iblk m c 1 t (ix3 0 r ch) = _
  unfold iblk
  rw [View.read_apply]
  show V m c main_arg1 _ = V m c main_arg1 _
  refine congrArg (V m c main_arg1) (funext fun a => Fin.ext ?_)
  match a with
  | ⟨0, _⟩ =>
    show win0_1.index t 0 * 1 + 1 * 0 = t.val / 32 % 4
    rw [h0]; omega
  | ⟨1, _⟩ =>
    show win0_1.index t 1 * 2048 + 1 * r.val = 2048 * (t.val % 32 % 32) + r.val
    rw [h1]; omega
  | ⟨2, _⟩ =>
    show win0_1.index t 2 * 256 + 1 * ch.val = ch.val
    rw [h2]; omega

/-- Chunk `s` of batch `b`: its contribution to the sum of bin `v`, channel `c`. -/
def chunkSum (bn : Vec Ideal S4x65536x1 .i32) (ft : Vec Ideal S4x65536x256 .f32) (b : Fin 4) (s : Nat) (v : Fin 512) (ch : Fin 256) : EReal :=
  ∑ r : Fin 2048, (if bn (ix3 b (row s r) 0) = BitVec.ofNat 32 v.val then (1 : EReal) else 0) * ft (ix3 b (row s r) ch)

/-- Chunk `s` of batch `b`: its contribution to the count of bin `v`. -/
def chunkCnt (bn : Vec Ideal S4x65536x1 .i32) (b : Fin 4) (s : Nat) (v : Fin 512) : EReal :=
  ∑ r : Fin 2048, (if bn (ix3 b (row s r) 0) = BitVec.ofNat 32 v.val then (1 : EReal) else 0) * Pay.one

/-- One step's sums: what the table held plus the step's chunk. -/
theorem step_sums (c : Dev nD) (t : Fin cfg0.N) (acc : Vec Ideal S512x256 .f32) (v : Fin 512) (ch : Fin 256) :
    k0_pay4 (F := Ideal) (binBlk m c t) (featBlk m c t) acc (ix2 v ch) =
      acc (ix2 v ch) + chunkSum (bins m c) (feats m c) (bat t.val) (t.val % 32) v ch := by
  rw [Pay.sums_apply]
  refine congrArg (acc (ix2 v ch) + ·) ?_
  unfold chunkSum
  refine Finset.sum_congr rfl fun r _ => ?_
  rw [bins_blk, feats_blk]

/-- One step's counts: what the column held plus the step's chunk. -/
theorem step_counts (c : Dev nD) (t : Fin cfg0.N) (acc : Vec Ideal S512x1 .f32) (v : Fin 512) :
    k0_pay5 (F := Ideal) (binBlk m c t) acc (ix2 v 0) =
      acc (ix2 v 0) + chunkCnt (bins m c) (bat t.val) (t.val % 32) v := by
  rw [Pay.counts_apply]
  refine congrArg (acc (ix2 v 0) + ·) ?_
  unfold chunkCnt
  refine Finset.sum_congr rfl fun r _ => ?_
  rw [bins_blk]

/-- The zero table the first step of a batch stores. -/
theorem zero_sums (i : S512x256.Idx) : k0_pay1 (F := Ideal) i = 0 := by
  unfold k0_pay1
  rw [shapeCast_self]
  exact Ideal.ofBits_zero_f32

/-- The zero column the first step of a batch stores. -/
theorem zero_counts (i : S512x1.Idx) : k0_pay2 (F := Ideal) i = 0 := by
  unfold k0_pay2
  rw [shapeCast_self]
  exact Ideal.ofBits_zero_f32

/-- THE ACCUMULATORS after step `n`: the contributions of the chunks `0 … n % 32` of batch `n / 32`. -/
theorem acc_eq (c : Dev nD) : ∀ (n : Nat) (h : n < cfg0.N),
    (∀ (v : Fin 512) (ch : Fin 256), (outsAt0 m c n h).2.1 (ix2 v ch) =
      ∑ s ∈ Finset.range (n % 32 + 1), chunkSum (bins m c) (feats m c) (bat n) s v ch)
    ∧ (∀ (v : Fin 512), (outsAt0 m c n h).2.2 (ix2 v 0) =
      ∑ s ∈ Finset.range (n % 32 + 1), chunkCnt (bins m c) (bat n) s v) := by
  intro n
  induction n with
  | zero =>
    intro h
    have h0 : (⟨0, h⟩ : Fin cfg0.N).val % 32 = 0 := rfl
    have h1 : ¬(⟨0, h⟩ : Fin cfg0.N).val % 32 = 31 := by show ¬(0 % 32 = 31); decide
    constructor
    · intro v ch
      rw [outsAt0_A m c ⟨0, h⟩ h0 h1]
      dsimp only
      rw [Pieces.sums_first, step_sums m c ⟨0, h⟩, zero_sums, zero_add]
      show _ = ∑ s ∈ Finset.range 1, _
      rw [Finset.sum_range_one]
      rfl
    · intro v
      rw [outsAt0_A m c ⟨0, h⟩ h0 h1]
      dsimp only
      rw [Pieces.counts_first, step_counts m c ⟨0, h⟩, zero_counts, zero_add]
      show _ = ∑ s ∈ Finset.range 1, _
      rw [Finset.sum_range_one]
      rfl
  | succ n ih =>
    intro h
    have hN : n + 1 < 128 := lt_of_lt_of_eq h N_0
    obtain ⟨ihS, ihC⟩ := ih (Nat.lt_of_succ_lt h)
    by_cases h0 : (n + 1) % 32 = 0
    · have h1 : ¬(n + 1) % 32 = 31 := by omega
      constructor
      · intro v ch
        rw [outsAt0_A m c ⟨n + 1, h⟩ h0 h1]
        dsimp only
        rw [Pieces.sums_first, step_sums m c ⟨n + 1, h⟩, zero_sums, zero_add]
        show chunkSum _ _ _ ((n + 1) % 32) v ch = _
        rw [h0, Finset.sum_range_one]
      · intro v
        rw [outsAt0_A m c ⟨n + 1, h⟩ h0 h1]
        dsimp only
        rw [Pieces.counts_first, step_counts m c ⟨n + 1, h⟩, zero_counts, zero_add]
        show chunkCnt _ _ ((n + 1) % 32) v = _
        rw [h0, Finset.sum_range_one]
    · have hb : bat (n + 1) = bat n := Fin.ext (by show (n + 1) / 32 % 4 = n / 32 % 4; omega)
      have hj : (n + 1) % 32 = n % 32 + 1 := by omega
      by_cases h1 : (n + 1) % 32 = 31
      · constructor
        · intro v ch
          rw [outsAt0_C m c ⟨n + 1, h⟩ h0 h1]
          dsimp only
          rw [Pieces.sums_last, step_sums m c ⟨n + 1, h⟩]
          show (outsAt0 m c n _).2.1 (ix2 v ch) + chunkSum _ _ (bat (n + 1)) ((n + 1) % 32) v ch = _
          rw [ihS v ch, hb, hj, Finset.sum_range_succ _ (n % 32 + 1)]
        · intro v
          rw [outsAt0_C m c ⟨n + 1, h⟩ h0 h1]
          dsimp only
          rw [Pieces.counts_last, step_counts m c ⟨n + 1, h⟩]
          show (outsAt0 m c n _).2.2 (ix2 v 0) + chunkCnt _ (bat (n + 1)) ((n + 1) % 32) v = _
          rw [ihC v, hb, hj, Finset.sum_range_succ _ (n % 32 + 1)]
      · constructor
        · intro v ch
          rw [outsAt0_B m c ⟨n + 1, h⟩ h0 h1]
          dsimp only
          rw [Pieces.sums_mid, step_sums m c ⟨n + 1, h⟩]
          show (outsAt0 m c n _).2.1 (ix2 v ch) + chunkSum _ _ (bat (n + 1)) ((n + 1) % 32) v ch = _
          rw [ihS v ch, hb, hj, Finset.sum_range_succ _ (n % 32 + 1)]
        · intro v
          rw [outsAt0_B m c ⟨n + 1, h⟩ h0 h1]
          dsimp only
          rw [Pieces.counts_mid, step_counts m c ⟨n + 1, h⟩]
          show (outsAt0 m c n _).2.2 (ix2 v 0) + chunkCnt _ (bat (n + 1)) ((n + 1) % 32) v = _
          rw [ihC v, hb, hj, Finset.sum_range_succ _ (n % 32 + 1)]

end Cert.KernelIdeal.Acc

end
-- ==== Proof.HostIdx.lean ====
/-
  THE BIN NUMBERS THE KERNEL READS ARE THE REFERENCE'S.

  Both programs compute a point's bin number from the point cloud by the same host operations (add one, halve, scale,
  convert to an integer, clamp to [0, 7], combine three coordinates as `(c₀·8)·8 + c₁·8 + c₂`). The kernel's launch then
  views the [4, 65536] array of bin numbers as [4, 65536, 1] and hands it to the first window. So the array that window
  stages is that view of the reference's bin numbers, as a function of the point cloud: the two terms are the same
  operations in the same order.
-/
import proofs.«137292_j46076409152321_1_alg».proof.Proof.Gen.KernelIdeal.Frame
import proofs.«137292_j46076409152321_1_alg».proof.Proof.Gen.ReferenceIdeal.Read
import Idealize.ShloMosaic.Lib.StableHlo.Run

noncomputable section

open Idealize.ShloMosaic Idealize.ShloMosaic.TcCoe Idealize.SL.Sem

namespace Cert.KernelIdeal.HostIdx

open Cert.KernelIdeal Cert.KernelIdeal.Gen

variable {F : FTy → Type} [FloatOps F]
variable (m : (ℓ : Loc nD τ sig) → Buf (Elt F) ℓ)

set_option maxRecDepth 8192 in
set_option maxHeartbeats 8000000 in
/-- The array the first window stages, as the region finds it: the reference's bin numbers of the launch's point cloud,
    viewed [4, 65536, 1]. -/
theorem V_bins (c : Dev nD) :
    (V m c main_v22 : Vec F S4x65536x1 .i32) =
      shapeCast S4x65536x1 (Cert.ReferenceIdeal.Read.val_main_v21 (F := F) (m ((c : Thread nD τ).loc main_arg0)))
        Facts₀.shapeCasts_S4x65536_S4x65536x1 := by
  dsimp only [V]
  simp only [hostOps0, hostOps0_1, hostOps0_2, List.flatten_cons, List.flatten_nil, List.append_nil, List.cons_append,
    List.nil_append]
  after_results_simp
  rfl

end Cert.KernelIdeal.HostIdx

end
-- ==== Proof.KernelFinal.lean ====
/-
  THE KERNEL'S RESULT IS THE MEAN OF EACH BIN.

  The output block of batch `b` is written back once, after the batch's last step `32·b + 31`, and holds the quotient
  of the two accumulators as that step leaves them (`Pieces.out_last`, `Pay.mean_apply`): by `Acc.acc_eq` the sums of
  all 32 chunks of the batch. The 32 chunks of 2048 rows are the batch's 65536 rows (`Seg.sum_chunks`), the one-hot
  factor keeps exactly the rows of the bin (`Seg.onehot_mul`), and the bin numbers the kernel reads are the reference's
  (`HostIdx.V_bins`). So block `b` is block `b` of `Seg.segMean` (`flushed_eq`); the four blocks tile the result array
  (`cover`), which therefore ends holding `Seg.segMean` of the bin numbers and the features (`final`, `run`).
-/
import proofs.«137292_j46076409152321_1_alg».proof.Proof.KernelAcc
import proofs.«137292_j46076409152321_1_alg».proof.Proof.HostIdx

open scoped BigOperators

noncomputable section

open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx Cert.Bridge.Seg Cert.KernelIdeal.Acc

variable (m : (ℓ : Loc nD τ sig) → Buf (Elt Ideal) ℓ) (ρ : Dev nD → PrngReg)

/-- The bin numbers of the launch's point cloud, [4, 65536]. -/
abbrev flat (c : Dev nD) : IVec S4x65536 32 :=
  Cert.ReferenceIdeal.Read.val_main_v21 (F := Ideal) (m ((c : Thread nD τ).loc main_arg0))

/-- The result: the mean of each bin, as a function of the launch's arguments. -/
abbrev result (c : Dev nD) : Vec Ideal S4x512x256 .f32 :=
  segMean (flat m c) (m ((c : Thread nD τ).loc main_arg1))

/-- The kernel's [4, 65536, 1] view of the bin numbers, read at a row. -/
theorem bins_eq (c : Dev nD) (b : Fin 4) (p : Fin 65536) : bins m c (ix3 b p 0) = flat m c (ix2 b p) := by
  show V m c main_v22 (ix3 b p 0) = _
  rw [HostIdx.V_bins m c]
  exact shapeCast_apply _ Facts₀.shapeCasts_S4x65536_S4x65536x1 (ix3 b p (0 : Fin 1)) (ix2 b p)
    (by rewrite [Shape.rowMajor_val_two, Shape.rowMajor_val_three]; show b.val * 65536 + p.val = (b.val * 65536 + p.val) * 1 + 0; omega)

/-- The features the region finds are the launch's. -/
theorem feats_eq (c : Dev nD) : feats m c = m ((c : Thread nD τ).loc main_arg1) := V_main_arg1 m c

/-- The 32 chunks' contributions to a bin's sum add up to the bin's sum over the batch's 65536 rows. -/
theorem chunks_sum (c : Dev nD) (b : Fin 4) (v : Fin 512) (ch : Fin 256) :
    ∑ s ∈ Finset.range 32, chunkSum (bins m c) (feats m c) b s v ch
      = segSum (flat m c) (m ((c : Thread nD τ).loc main_arg1)) b v ch := by
  unfold chunkSum
  refine (sum_chunks (fun p : Fin 65536 =>
    (if bins m c (ix3 b p 0) = BitVec.ofNat 32 v.val then (1 : EReal) else 0) * feats m c (ix3 b p ch))).trans ?_
  unfold segSum
  refine Finset.sum_congr rfl fun p _ => ?_
  rw [onehot_mul, bins_eq, feats_eq]

/-- … and likewise the counts. -/
theorem chunks_cnt (c : Dev nD) (b : Fin 4) (v : Fin 512) :
    ∑ s ∈ Finset.range 32, chunkCnt (bins m c) b s v = segCnt (flat m c) Pay.one b v := by
  unfold chunkCnt
  refine (sum_chunks (fun p : Fin 65536 =>
    (if bins m c (ix3 b p 0) = BitVec.ofNat 32 v.val then (1 : EReal) else 0) * Pay.one)).trans ?_
  unfold segCnt
  refine Finset.sum_congr rfl fun p _ => ?_
  rw [onehot_mul, bins_eq]

/-- Where the output window's blocks lie: block (n / 32, 0, 0). -/
theorem idx_facts2 : ∀ t : Fin cfg0.N,
    win0_2.index t 0 = t.val / 32 ∧ win0_2.index t 1 = 0 ∧ win0_2.index t 2 = 0 :=
  (by decide +kernel : ∀ t : Fin grid0.N, _)

/-- A [1, 512, 256] block written back at step `t` is block `t / 32` of an array `G` as soon as its entry (0, v, c) is
    `G`'s entry (t / 32, v, c). -/
theorem cut_read (t : Fin cfg0.N) (X : Vec Ideal S1x512x256 .f32) (G : Vec Ideal S4x512x256 .f32)
    (h : ∀ (v : Fin 512) (ch : Fin 256), X (ix3 (0 : Fin 1) v ch) = G (ix3 (bat t.val) v ch)) :
    (cfg0.win 2).cut (grid0.coords t) X = ((cfg0.win 2).blk t).view.read (Elt Ideal) G := by
  have hN : t.val < 128 := lt_of_lt_of_eq t.isLt N_0
  obtain ⟨i0, i1, i2⟩ := idx_facts2 t
  funext j
  rw [View.read_apply]
  show X (win0_2.xinj (grid0.coords t) j) = G (((cfg0.win 2).blk t).view.emb j)
  have hv : (j 1).val < 512 := (j 1).isLt
  have hc : (j 2).val < 256 := (j 2).isLt
  have hj : win0_2.xinj (grid0.coords t) j = ix3 (0 : Fin 1) (⟨(j 1).val, hv⟩ : Fin 512) (⟨(j 2).val, hc⟩ : Fin 256) := by
    funext a
    match a with
    | ⟨0, _⟩ => exact Fin.ext (by show (j 0).val = 0; have : (j 0).val < 1 := (j 0).isLt; omega)
    | ⟨1, _⟩ => rfl
    | ⟨2, _⟩ => rfl
  have hemb : ((cfg0.win 2).blk t).view.emb j = ix3 (bat t.val) (⟨(j 1).val, hv⟩ : Fin 512) (⟨(j 2).val, hc⟩ : Fin 256) := by
    funext a
    apply Fin.ext
    match a with
    | ⟨0, _⟩ =>
      show win0_2.index t 0 * 1 + 1 * (j 0).val = t.val / 32 % 4
      have : (j 0).val < 1 := (j 0).isLt
      rw [i0]; omega
    | ⟨1, _⟩ => show win0_2.index t 1 * 512 + 1 * (j 1).val = (j 1).val; rw [i1]; omega
    | ⟨2, _⟩ => show win0_2.index t 2 * 256 + 1 * (j 2).val = (j 2).val; rw [i2]; omega
  rw [hj, hemb]
  exact h _ _

/-- WHAT A BATCH'S LAST STEP WRITES BACK is its block of the result. -/
theorem flushed_eq (c : Dev nD) (t : Fin cfg0.N) (hf : (cfg0.win 2).flush t = true) :
    (dats m 0 c).flushed 2 t = ((cfg0.win 2).blk t).view.read (Elt Ideal) (result m c) := by
  have hN : t.val < 128 := lt_of_lt_of_eq t.isLt N_0
  have h1 : t.val % 32 = 31 := (flush0_2 t).mp hf
  have h0 : ¬t.val % 32 = 0 := by omega
  obtain ⟨hS, hC⟩ := acc_eq m c t.val t.isLt
  -- the two accumulators after this step, as the step's own payloads
  have eS : (outsAt0 m c t.val t.isLt).2.1 = k0_pay4 (binBlk m c t) (featBlk m c t)
      (outsAt0 m c (t.val - 1) (Nat.lt_of_le_of_lt (Nat.sub_le _ _) t.isLt)).2.1 := by
    rw [outsAt0_C m c t h0 h1]; dsimp only; rw [Pieces.sums_last]
  have eC : (outsAt0 m c t.val t.isLt).2.2 = k0_pay5 (binBlk m c t)
      (outsAt0 m c (t.val - 1) (Nat.lt_of_le_of_lt (Nat.sub_le _ _) t.isLt)).2.2 := by
    rw [outsAt0_C m c t h0 h1]; dsimp only; rw [Pieces.counts_last]
  rw [Value.flushed2_C m c t h0 h1, Pieces.out_last, ← eS, ← eC]
  refine cut_read t _ (result m c) fun v ch => ?_
  rw [Pay.mean_apply, hS v ch, hC v, h1, chunks_sum, chunks_cnt]
  rfl

/-- The four blocks tile the result array: row `b` of the batches is in the block written after step `32·b + 31`. -/
theorem cover (i : S4x512x256.Idx) :
    ∃ t : Fin cfg0.N, (cfg0.win 2).flush t = true ∧ i ∈ ((cfg0.win 2).blk t).view.set := by
  have hb : (i 0).val < 4 := (i 0).isLt
  have hv : (i 1).val < 512 := (i 1).isLt
  have hc : (i 2).val < 256 := (i 2).isLt
  have hN : cfg0.N = 128 := N_0
  let t : Fin cfg0.N := ⟨32 * (i 0).val + 31, by rw [hN]; omega⟩
  obtain ⟨i0, i1, i2⟩ := idx_facts2 t
  have ht : t.val = 32 * (i 0).val + 31 := rfl
  refine ⟨t, (flush0_2 t).mpr (by rw [ht]; omega), ?_⟩
  show i ∈ ((View.whole main_v23).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [i0, ht]; omega
  | ⟨1, _⟩ =>
    show win0_2.index t 1 * 512 ≤ (i 1).val ∧ (i 1).val < win0_2.index t 1 * 512 + 512
    rw [i1]; omega
  | ⟨2, _⟩ =>
    show win0_2.index t 2 * 256 ≤ (i 2).val ∧ (i 2).val < win0_2.index t 2 * 256 + 256
    rw [i2]; omega

/-- THE RESULT ARRAY after the run: the mean of each bin. -/
theorem final (c : Dev nD) : (dats m 0 c).arrAt 2 cfg0.N = result m c :=
  (dats m 0 c).arrAt_eq_of_cover 2 (result m c) (fun t hf => flushed_eq m c t hf) cover

/-- The kernel's run, read: the result array at the mean of each bin, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.lean ====
/- The proof of `Cert.Claim` (proofs.«137292_j46076409152321_1_alg».proof.Defs): a scatter-mean of point features into 512 bins per
   batch, computed by the kernel as one-hot matrix products accumulated over 32 chunks of 2048 points and by the
   reference as two scatter-adds over all points, are the same function over the extended reals.

   Both programs derive a point's bin number from the point cloud by the same host operations; it lies in [0, 512)
   (Proof/FlatRange.lean). The common value is `Seg.segMean` (Proof/SegSpec.lean): for batch `b`, bin `v`, channel `c`,

       (∑ over the batch's points p with bin[b, p] = v of x[b, p, c]) / max(number of such points, 1).

   * The reference (Proof/RefValue.lean): a scatter-add at the bin numbers shifted by 512 per batch lands, at table row
     `512·b + v`, exactly the points of batch `b` in bin `v`, because the bin numbers are below 512.
   * The kernel (Proof/KernelPieces.lean, KernelPay.lean, KernelAcc.lean, KernelFinal.lean): the one-hot entry is 1 or 0,
     `1 · x = x` and `0 · x = 0`, the chunks' partial sums add up in any order, and the 32 chunks are the batch's points;
     the bin numbers its first window stages are the reference's (Proof/HostIdx.lean).

   No law used needs finiteness: only associativity and commutativity of addition and the two products above.
   The three frames are the generated ones (the reference's is its generated run with the result dropped); the ideal
   pass rewrote nothing, so `preserves` is trivial. -/
import proofs.«137292_j46076409152321_1_alg».proof.Defs
import proofs.«137292_j46076409152321_1_alg».proof.Proof.Gen.Kernel
import proofs.«137292_j46076409152321_1_alg».proof.Proof.Gen.Kernel.Skeleton
import proofs.«137292_j46076409152321_1_alg».proof.Proof.Gen.Kernel.Launch
import proofs.«137292_j46076409152321_1_alg».proof.Proof.Gen.Kernel.Points
import proofs.«137292_j46076409152321_1_alg».proof.Proof.Gen.Kernel.Frame
import proofs.«137292_j46076409152321_1_alg».proof.Proof.Gen.KernelIdeal
import proofs.«137292_j46076409152321_1_alg».proof.Proof.Gen.KernelIdeal.Skeleton
import proofs.«137292_j46076409152321_1_alg».proof.Proof.Gen.KernelIdeal.Launch
import proofs.«137292_j46076409152321_1_alg».proof.Proof.Gen.KernelIdeal.Points
import proofs.«137292_j46076409152321_1_alg».proof.Proof.Gen.KernelIdeal.Frame
import proofs.«137292_j46076409152321_1_alg».proof.Proof.Gen.ReferenceIdeal
import proofs.«137292_j46076409152321_1_alg».proof.Proof.Gen.Pre_finite_inputs
import proofs.«137292_j46076409152321_1_alg».proof.Proof.Gen.KernelIdeal.Value
import proofs.«137292_j46076409152321_1_alg».proof.Proof.Gen.ReferenceIdeal.Run
import proofs.«137292_j46076409152321_1_alg».proof.Proof.Gen.ReferenceIdeal.Read
import proofs.«137292_j46076409152321_1_alg».proof.Proof.RefValue
import proofs.«137292_j46076409152321_1_alg».proof.Proof.KernelFinal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the point cloud and the features, the kernel's result array and the reference's both
    end at the mean of each bin of the same bin numbers and features. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.Bridge.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
